-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S64x256 : Shape := ⟨2, ![64, 256]⟩
abbrev S64x1 : Shape := ⟨2, ![64, 1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg7 : FVec F S64x256 .f32) (main_arg8 : FVec F S64x1 .f32) (main_arg9 : FVec F S64x1 .f32) (main_v33 : IVec S_ 1) : IVec S_ 1 :=
  let main_v34 : FVec F S64x256 .f32 := Host.absf main_arg7
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S64x1 .f32 := Host.absf main_arg9
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  main_v48

def fn_part1 {F : FTy → Type} [FloatOps F] (main_arg4 : FVec F S64x1 .f32) (main_arg5 : FVec F S64x256 .f32) (main_arg6 : FVec F S64x1 .f32) (main_arg7 : FVec F S64x256 .f32) (main_arg8 : FVec F S64x1 .f32) (main_arg9 : FVec F S64x1 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x256 .f32) (main_arg1 : FVec F S100000x256 .f32) (main_arg2 : FVec F S100000x256 .f32) (main_arg3 : FVec F S64x256 .f32) (main_arg4 : FVec F S64x1 .f32) (main_arg5 : FVec F S64x256 .f32) (main_arg6 : FVec F S64x1 .f32) (main_arg7 : FVec F S64x256 .f32) (main_arg8 : FVec F S64x1 .f32) (main_arg9 : FVec F S64x1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000x256 .f32 := Host.absf main_arg2
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_arg6 main_arg7 main_arg8 main_arg9 main_v13 main_v16
-- ==== Kernel.lean ====
abbrev S100000x256 : Shape := ⟨2, ![100000, 256]⟩
abbrev S64x256 : Shape := ⟨2, ![64, 256]⟩
abbrev S64x1 : Shape := ⟨2, ![64, 1]⟩
abbrev S1x64 : Shape := ⟨2, ![1, 64]⟩
abbrev S100000x3 : Shape := ⟨2, ![100000, 3]⟩
abbrev S4000x256 : Shape := ⟨2, ![4000, 256]⟩
abbrev S4000x3 : Shape := ⟨2, ![4000, 3]⟩
abbrev S4000x64 : Shape := ⟨2, ![4000, 64]⟩
abbrev S4000 : Shape := ⟨1, ![4000]⟩
abbrev S4000x1 : Shape := ⟨2, ![4000, 1]⟩
abbrev S_ : Shape := ⟨0, ![]⟩
abbrev S3 : Shape := ⟨1, ![3]⟩
abbrev S1x3 : Shape := ⟨2, ![1, 3]⟩
abbrev S2000x256 : Shape := ⟨2, ![2000, 256]⟩
abbrev S2000x3 : Shape := ⟨2, ![2000, 3]⟩
abbrev S2000x1 : Shape := ⟨2, ![2000, 1]⟩

abbrev nBuf : Space → Nat
  | .hbm => 30
  | .vmem => 25
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000x256, .f32⟩
  | .hbm, ⟨3, _⟩ => ⟨S64x256, .f32⟩
  | .hbm, ⟨4, _⟩ => ⟨S64x1, .f32⟩
  | .hbm, ⟨5, _⟩ => ⟨S64x256, .f32⟩
  | .hbm, ⟨6, _⟩ => ⟨S64x1, .f32⟩
  | .hbm, ⟨7, _⟩ => ⟨S64x256, .f32⟩
  | .hbm, ⟨8, _⟩ => ⟨S64x1, .f32⟩
  | .hbm, ⟨9, _⟩ => ⟨S64x1, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S100000x3, .f32⟩
  | .hbm, ⟨15, _⟩ => ⟨S_, .f32⟩
  | .hbm, ⟨16, _⟩ => ⟨S3, .f32⟩
  | .hbm, ⟨17, _⟩ => ⟨S_, .f32⟩
  | .hbm, ⟨18, _⟩ => ⟨S3, .f32⟩
  | .hbm, ⟨19, _⟩ => ⟨S3, .f32⟩
  | .hbm, ⟨20, _⟩ => ⟨S1x3, .f32⟩
  | .hbm, ⟨21, _⟩ => ⟨S100000x3, .f32⟩
  | .hbm, ⟨22, _⟩ => ⟨S100000x3, .f32⟩
  | .hbm, ⟨23, _⟩ => ⟨S100000x3, .f32⟩
  | .hbm, ⟨24, _⟩ => ⟨S_, .f32⟩
  | .hbm, ⟨25, _⟩ => ⟨S3, .f32⟩
  | .hbm, ⟨26, _⟩ => ⟨S1x3, .f32⟩
  | .hbm, ⟨27, _⟩ => ⟨S100000x3, .f32⟩
  | .hbm, ⟨28, _⟩ => ⟨S100000x3, .f32⟩
  | .hbm, ⟨29, _⟩ => ⟨S100000x256, .f32⟩
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S4000x256, .f32⟩
  | .local _ .vmem, ⟨5, _⟩ => ⟨S4000x256, .f32⟩
  | .local _ .vmem, ⟨6, _⟩ => ⟨S64x256, .f32⟩
  | .local _ .vmem, ⟨7, _⟩ => ⟨S1x64, .f32⟩
  | .local _ .vmem, ⟨8, _⟩ => ⟨S64x256, .f32⟩
  | .local _ .vmem, ⟨9, _⟩ => ⟨S1x64, .f32⟩
  | .local _ .vmem, ⟨10, _⟩ => ⟨S64x256, .f32⟩
  | .local _ .vmem, ⟨11, _⟩ => ⟨S1x64, .f32⟩
  | .local _ .vmem, ⟨12, _⟩ => ⟨S1x64, .f32⟩
  | .local _ .vmem, ⟨13, _⟩ => ⟨S4000x3, .f32⟩
  | .local _ .vmem, ⟨14, _⟩ => ⟨S4000x3, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x3, .f32⟩
  | .local _ .vmem, ⟨22, _⟩ => ⟨S2000x3, .f32⟩
  | .local _ .vmem, ⟨23, _⟩ => ⟨S2000x256, .f32⟩
  | .local _ .vmem, ⟨24, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S64x1_S1x64 : S64x1.ShapeCasts S1x64
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  inb_S4000x3_S4000x1_0_0 : ∀ a, (![0, 0] : Fin 2 → Nat) a + S4000x1.size a ≤ S4000x3.size a
  h_S4000x1 : 0 < S4000x1.numel
  inb_S4000x3_S4000x1_0_1 : ∀ a, (![0, 1] : Fin 2 → Nat) a + S4000x1.size a ≤ S4000x3.size a
  inb_S4000x3_S4000x1_0_2 : ∀ a, (![0, 2] : Fin 2 → Nat) a + S4000x1.size a ≤ S4000x3.size a
  reducesTo_S100000x3_S3_d0 : S100000x3.ReducesTo [0] S3
  h_S_ : 0 < S_.numel
  bcast_S_S3 : S_.BroadcastsInDim S3 (![] : Fin 0 → Fin S3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  inb_S2000x3_S2000x1_0_0 : ∀ a, (![0, 0] : Fin 2 → Nat) a + S2000x1.size a ≤ S2000x3.size a
  h_S2000x1 : 0 < S2000x1.numel
  shapeCasts_S2000x1_S2000x1 : S2000x1.ShapeCasts S2000x1
  inb_S2000x3_S2000x1_0_1 : ∀ a, (![0, 1] : Fin 2 → Nat) a + S2000x1.size a ≤ S2000x3.size a
  inb_S2000x3_S2000x1_0_2 : ∀ a, (![0, 2] : Fin 2 → Nat) a + S2000x1.size a ≤ S2000x3.size a
  inb_S2000x256_S2000x256_0_0 : ∀ a, (![0, 0] : Fin 2 → Nat) a + S2000x256.size a ≤ S2000x256.size a
  h_S2000x256 : 0 < S2000x256.numel
  broadcasts_S2000x1_S2000x256 : S2000x1.Broadcasts S2000x256
  dot_S4000x256_S64x256_S4000x64_1_1_0_0_n_n_wf : DotDims.WF S4000x256 S64x256 S4000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S100000x256.size a
  hwx0_1 : ∀ i : grid0.Coords, EltTy.bits .f32 = 32 ∨ (Rect.block (s := S100000x256) S4000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S100000x256.size a
  hwx0_2 : ∀ i : grid0.Coords, EltTy.bits .f32 = 32 ∨ (Rect.block (s := S100000x256) S4000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .f32 = 32 ∨ (Rect.block (s := S64x256) S64x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x3.size a ≤ S100000x3.size a
  hwx0_10 : ∀ i : grid0.Coords, EltTy.bits .f32 = 32 ∨ (Rect.block (s := S100000x3) S4000x3.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S100000x256.size a
  hwx1_2 : ∀ i : grid1.Coords, EltTy.bits .f32 = 32 ∨ (Rect.block (s := S100000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S100000x3.size a
  hwx1_3 : ∀ i : grid1.Coords, EltTy.bits .f32 = 32 ∨ (Rect.block (s := S100000x3) S2000x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S100000x256.size a
  hwx1_4 : ∀ i : grid1.Coords, EltTy.bits .f32 = 32 ∨ (Rect.block (s := S100000x256) S2000x256.size (cc1_transform_4 i) (hinb1_4 i)).WholeWords (EltTy.packing .f32)

variable [Facts₀]

def dot_S4000x256_S64x256_S4000x64_1_1_0_0_n_n : DotDims S4000x256 S64x256 S4000x64 where
  lhsContracting := [1]
  rhsContracting := [1]
  lhsNonContracting := [0]
  rhsNonContracting := [0]
  lhsBatch := []
  rhsBatch := []
  wf := dot_S4000x256_S64x256_S4000x64_1_1_0_0_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S4000x3.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S64x256 : Shape := ⟨2, ![64, 256]⟩
abbrev S64x1 : Shape := ⟨2, ![64, 1]⟩
abbrev S256x64 : Shape := ⟨2, ![256, 64]⟩
abbrev S100000x64 : Shape := ⟨2, ![100000, 64]⟩
abbrev S1x64 : Shape := ⟨2, ![1, 64]⟩
abbrev S100000x1 : Shape := ⟨2, ![100000, 1]⟩
abbrev S100000 : Shape := ⟨1, ![100000]⟩
abbrev S_ : Shape := ⟨0, ![]⟩
abbrev S1 : Shape := ⟨1, ![1]⟩

abbrev nBuf : Space → Nat
  | .hbm => 84
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000x256, .f32⟩
  | .hbm, ⟨3, _⟩ => ⟨S64x256, .f32⟩
  | .hbm, ⟨4, _⟩ => ⟨S64x1, .f32⟩
  | .hbm, ⟨5, _⟩ => ⟨S64x256, .f32⟩
  | .hbm, ⟨6, _⟩ => ⟨S64x1, .f32⟩
  | .hbm, ⟨7, _⟩ => ⟨S64x256, .f32⟩
  | .hbm, ⟨8, _⟩ => ⟨S64x1, .f32⟩
  | .hbm, ⟨9, _⟩ => ⟨S64x1, .f32⟩
  | .hbm, ⟨10, _⟩ => ⟨S256x64, .f32⟩
  | .hbm, ⟨11, _⟩ => ⟨S100000x64, .f32⟩
  | .hbm, ⟨12, _⟩ => ⟨S1x64, .f32⟩
  | .hbm, ⟨13, _⟩ => ⟨S100000x64, .f32⟩
  | .hbm, ⟨14, _⟩ => ⟨S100000x64, .f32⟩
  | .hbm, ⟨15, _⟩ => ⟨S100000x64, .f32⟩
  | .hbm, ⟨16, _⟩ => ⟨S100000x1, .f32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S100000, .f32⟩
  | .hbm, ⟨30, _⟩ => ⟨S100000, .f32⟩
  | .hbm, ⟨31, _⟩ => ⟨S256x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x1, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S100000, .f32⟩
  | .hbm, ⟨45, _⟩ => ⟨S100000, .f32⟩
  | .hbm, ⟨46, _⟩ => ⟨S100000, .f32⟩
  | .hbm, ⟨47, _⟩ => ⟨S_, .f32⟩
  | .hbm, ⟨48, _⟩ => ⟨S_, .f32⟩
  | .hbm, ⟨49, _⟩ => ⟨S1, .f32⟩
  | .hbm, ⟨50, _⟩ => ⟨S100000, .f32⟩
  | .hbm, ⟨51, _⟩ => ⟨S100000, .f32⟩
  | .hbm, ⟨52, _⟩ => ⟨S256x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x1, .f32⟩
  | .hbm, ⟨59, _⟩ => ⟨S100000, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1, .f32⟩
  | .hbm, ⟨65, _⟩ => ⟨S100000, .f32⟩
  | .hbm, ⟨66, _⟩ => ⟨S100000, .f32⟩
  | .hbm, ⟨67, _⟩ => ⟨S100000, .f32⟩
  | .hbm, ⟨68, _⟩ => ⟨S_, .f32⟩
  | .hbm, ⟨69, _⟩ => ⟨S_, .f32⟩
  | .hbm, ⟨70, _⟩ => ⟨S1, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x256, .f32⟩
  | .hbm, ⟨75, _⟩ => ⟨S100000x256, .f32⟩
  | .hbm, ⟨76, _⟩ => ⟨S100000x1, .f32⟩
  | .hbm, ⟨77, _⟩ => ⟨S100000x256, .f32⟩
  | .hbm, ⟨78, _⟩ => ⟨S100000x256, .f32⟩
  | .hbm, ⟨79, _⟩ => ⟨S100000x256, .f32⟩
  | .hbm, ⟨80, _⟩ => ⟨S100000x1, .f32⟩
  | .hbm, ⟨81, _⟩ => ⟨S100000x256, .f32⟩
  | .hbm, ⟨82, _⟩ => ⟨S100000x256, .f32⟩
  | .hbm, ⟨83, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]

class Facts₀ : Prop where
  transposes_S64x256_S256x64_1_0 : S64x256.Transposes [1, 0] S256x64
  transposes_S64x1_S1x64_1_0 : S64x1.Transposes [1, 0] S1x64
  bcast_S1x64_S100000x64_0_1 : S1x64.BroadcastsInDim S100000x64 (![0, 1] : Fin 2 → Fin S100000x64.rank)
  shapeCasts_S100000x1_S100000 : S100000x1.ShapeCasts S100000
  reducesTo_S100000_S_d0 : S100000.ReducesTo [0] S_
  h_S_ : 0 < S_.numel
  bcast_S_S1 : S_.BroadcastsInDim S1 (![] : Fin 0 → Fin S1.rank)
  bcast_S1_S100000_0 : S1.BroadcastsInDim S100000 (![0] : Fin 1 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  dot_S100000x256_S256x64_S100000x64_1_0_0_1_n_n_wf : DotDims.WF S100000x256 S256x64 S100000x64 [1] [0] [0] [1] [] []
  dot_S100000x64_S64x1_S100000x1_1_0_0_1_n_n_wf : DotDims.WF S100000x64 S64x1 S100000x1 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  What both programs compute, as functions of the argument arrays over the extended reals.

  One stream (a node matrix Z : [100000, 256], weights W : [64, 256], a bias column b and a query
  column q : [64, 1]) gives every node n a raw score
      score n = ∑ₕ tanh (∑_d Z[n,d] · W[h,d] + b[h]) · q[h],
  the scores are turned into weights by a softmax over ALL nodes, written as jax writes it: shift by
  the larger of the -∞ pattern and the running maximum from that pattern, exponentiate, divide by
  the zero pattern plus the sum of the exponentials. The result row n is the three streams' rows n
  scaled by their weights and added, left to right.
-/
import Idealize.ShloMosaic.PureOps.Ideal
import Idealize.ShloMosaic.Lib.ValueIdx

noncomputable section

namespace Cert.Spec

open Idealize.ShloMosaic Idealize.ShloMosaic.ValueIdx

/-- The raw score of node `n` of one stream. -/
def score (Z : (⟨2, ![100000, 256]⟩ : Shape).Idx → EReal) (W : (⟨2, ![64, 256]⟩ : Shape).Idx → EReal)
    (b q : (⟨2, ![64, 1]⟩ : Shape).Idx → EReal) (n : Fin 100000) : EReal :=
  ∑ h : Fin 64, Ideal.tanh ((∑ d : Fin 256, Z (ix2 n d) * W (ix2 h d)) + b (ix2 h 0)) * q (ix2 h 0)

/-- The softmax's shift: the -∞ pattern against the maximum of the scores folded from that pattern. -/
def shift (s : Fin 100000 → EReal) : EReal :=
  max (Ideal.ofBits .f32 0xFF800000#32) ((Finset.univ : Finset (Fin 100000)).fold max (Ideal.ofBits .f32 0xFF800000#32) s)

/-- The softmax weight of node `n` among all nodes. -/
def weight (s : Fin 100000 → EReal) (n : Fin 100000) : EReal :=
  Ideal.div (Ideal.exp (s n - shift s)) (Ideal.ofBits .f32 0x00000000#32 + ∑ k : Fin 100000, Ideal.exp (s k - shift s))

/-- Three per-node columns side by side: a [100000, 3] array. -/
def packed (s0 s1 s2 : Fin 100000 → EReal) : (⟨2, ![100000, 3]⟩ : Shape).Idx → EReal :=
  fun i => if (i 1).val = 0 then s0 (i 0) else if (i 1).val = 1 then s1 (i 0) else s2 (i 0)

/-- Column `j` of a [100000, 3] array. -/
def column (A : (⟨2, ![100000, 3]⟩ : Shape).Idx → EReal) (j : Fin 3) : Fin 100000 → EReal :=
  fun n => A (ix2 n j)

theorem column_packed_0 (s0 s1 s2 : Fin 100000 → EReal) : column (packed s0 s1 s2) 0 = s0 := rfl
theorem column_packed_1 (s0 s1 s2 : Fin 100000 → EReal) : column (packed s0 s1 s2) 1 = s1 := rfl
theorem column_packed_2 (s0 s1 s2 : Fin 100000 → EReal) : column (packed s0 s1 s2) 2 = s2 := rfl

/-- A [100000, 3] array is its three columns side by side. -/
theorem eq_packed_columns (A : (⟨2, ![100000, 3]⟩ : Shape).Idx → EReal) :
    A = packed (column A 0) (column A 1) (column A 2) := by
  funext i
  obtain ⟨n, j, rfl⟩ : ∃ (n : Fin 100000) (j : Fin 3), i = ix2 n j := ⟨i 0, i 1, eq_ix2 i⟩
  match j with
  | ⟨0, _⟩ => rfl
  | ⟨1, _⟩ => rfl
  | ⟨2, _⟩ => rfl

/-- Row `n` of the result: the three streams' rows scaled by their nodes' weights and added. -/
def mix (aT aC aF : Fin 100000 → EReal) (ZT ZC ZF : (⟨2, ![100000, 256]⟩ : Shape).Idx → EReal) :
    (⟨2, ![100000, 256]⟩ : Shape).Idx → EReal :=
  fun i => aT (i 0) * ZT i + aC (i 0) * ZC i + aF (i 0) * ZF i

/-- The whole computation. -/
def result (ZT ZC ZF : (⟨2, ![100000, 256]⟩ : Shape).Idx → EReal)
    (WT : (⟨2, ![64, 256]⟩ : Shape).Idx → EReal) (bT : (⟨2, ![64, 1]⟩ : Shape).Idx → EReal)
    (WC : (⟨2, ![64, 256]⟩ : Shape).Idx → EReal) (bC : (⟨2, ![64, 1]⟩ : Shape).Idx → EReal)
    (WF : (⟨2, ![64, 256]⟩ : Shape).Idx → EReal) (bF q : (⟨2, ![64, 1]⟩ : Shape).Idx → EReal) :
    (⟨2, ![100000, 256]⟩ : Shape).Idx → EReal :=
  mix (weight (score ZT WT bT q)) (weight (score ZC WC bC q)) (weight (score ZF WF bF q)) ZT ZC ZF

end Cert.Spec

end
-- ==== Proof.Payloads.lean ====
/-
  The two kernel bodies' arithmetic, read at an index over the extended reals.
  The score body's three stores hold the same function of their own stream's blocks: row r's score is
  ∑ₕ tanh (∑_d z[r,d] · w[h,d] + b[0,h]) · q[0,h]. The combine body's one store holds, at (r, d), the
  three streams' entries scaled by the three weight columns' entries of row r and added left to right.
-/
import proofs.«413630_j58652073394851_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen
open Idealize.ShloMosaic Idealize.ShloMosaic.TcCoe Idealize.ShloMosaic.ValueIdx

/-- The three score payloads are one function (the same operations on their own operands). -/
theorem pay1_eq_pay2 {F : FTy → Type} [FloatOps F] : @k0_pay1 F _ = @k0_pay2 F _ := rfl
theorem pay3_eq_pay2 {F : FTy → Type} [FloatOps F] : @k0_pay3 F _ = @k0_pay2 F _ := rfl

/-- A `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The add-reduction of an `[a, b]` array over its columns reads, at row `p`, the sum of that row's entries. -/
theorem multiReduction_add_ab_a_apply {φ : FTy} {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ c : Fin b, v (ix2 p c) := by
  rw [Ideal.multiReduction_add_single]
  refine Finset.sum_congr rfl fun c _ => congrArg v ?_
  funext ax
  match ax with
  | ⟨0, _⟩ => exact Fin.ext rfl
  | ⟨1, _⟩ => exact Fin.ext rfl

/-- The hyperbolic tangent of an array reads, at an index, the extended reals' `tanh` of the element. -/
theorem tanh_apply {s : Shape} {φ : FTy} (v : FVec Ideal s φ) (i : s.Idx) : tanh v i = Ideal.tanh (v i) := rfl

/-! ### The score matmul's operand indices: both operands contract their axis 1 -/

theorem lhs_score_0 (i : S4000x64.Idx) (q : dot_S4000x256_S64x256_S4000x64_1_1_0_0_n_n.contr.Idx) :
    (dot_S4000x256_S64x256_S4000x64_1_1_0_0_n_n.lhsIdx i q 0).val = (i 0).val := by
  unfold DotDims.lhsIdx
  rw [dif_neg (show ¬(0 : Fin S4000x256.rank) ∈ dot_S4000x256_S64x256_S4000x64_1_1_0_0_n_n.lhsBatch by decide), dif_pos (show (0 : Fin S4000x256.rank) ∈ dot_S4000x256_S64x256_S4000x64_1_1_0_0_n_n.lhsNonContracting by decide)]
  rfl
theorem lhs_score_1 (i : S4000x64.Idx) (q : dot_S4000x256_S64x256_S4000x64_1_1_0_0_n_n.contr.Idx) :
    (dot_S4000x256_S64x256_S4000x64_1_1_0_0_n_n.lhsIdx i q 1).val = (q ⟨0, by decide⟩).val :=
  dot_S4000x256_S64x256_S4000x64_1_1_0_0_n_n.lhsIdx_val_of_single rfl i q
theorem rhs_score_0 (i : S4000x64.Idx) (q : dot_S4000x256_S64x256_S4000x64_1_1_0_0_n_n.contr.Idx) :
    (dot_S4000x256_S64x256_S4000x64_1_1_0_0_n_n.rhsIdx i q 0).val = (i 1).val := by
  unfold DotDims.rhsIdx
  rw [dif_neg (show ¬(0 : Fin S64x256.rank) ∈ dot_S4000x256_S64x256_S4000x64_1_1_0_0_n_n.rhsBatch by decide), dif_pos (show (0 : Fin S64x256.rank) ∈ dot_S4000x256_S64x256_S4000x64_1_1_0_0_n_n.rhsNonContracting by decide)]
  rfl
theorem rhs_score_1 (i : S4000x64.Idx) (q : dot_S4000x256_S64x256_S4000x64_1_1_0_0_n_n.contr.Idx) :
    (dot_S4000x256_S64x256_S4000x64_1_1_0_0_n_n.rhsIdx i q 1).val = (q ⟨0, by decide⟩).val :=
  dot_S4000x256_S64x256_S4000x64_1_1_0_0_n_n.rhsIdx_val_of_single rfl i q

/-- The score matmul into the zero accumulator reads, at `(r, h)`, the dot product of row `r` of the left operand
    with row `h` of the right one. -/
theorem score_matmul_apply (x : FVec Ideal S4000x256 .bf16) (y : FVec Ideal S64x256 .bf16) (r : Fin 4000) (h : Fin 64) :
    matmul dot_S4000x256_S64x256_S4000x64_1_1_0_0_n_n none x y (constant S4000x64 .f32 0x00000000#32) (ix2 r h)
      = ∑ k : Fin 256, x (ix2 r k) * y (ix2 h k) := by
  simp only [matmul]
  rw [Ideal.matmul_constant_zero_apply, ← Equiv.sum_comp (ValueIdx.contrEquiv1 dot_S4000x256_S64x256_S4000x64_1_1_0_0_n_n 256 rfl rfl).symm]
  refine Finset.sum_congr rfl fun k _ => ?_
  have hk := ValueIdx.contrEquiv1_symm_val dot_S4000x256_S64x256_S4000x64_1_1_0_0_n_n 256 rfl rfl k
  have el : dot_S4000x256_S64x256_S4000x64_1_1_0_0_n_n.lhsIdx (ix2 r h) ((ValueIdx.contrEquiv1 dot_S4000x256_S64x256_S4000x64_1_1_0_0_n_n 256 rfl rfl).symm k) = ix2 r k := funext fun a => Fin.ext (by
    match a with
    | ⟨0, _⟩ => exact lhs_score_0 _ _
    | ⟨1, _⟩ => exact (lhs_score_1 _ _).trans hk)
  have er : dot_S4000x256_S64x256_S4000x64_1_1_0_0_n_n.rhsIdx (ix2 r h) ((ValueIdx.contrEquiv1 dot_S4000x256_S64x256_S4000x64_1_1_0_0_n_n 256 rfl rfl).symm k) = ix2 h k := funext fun a => Fin.ext (by
    match a with
    | ⟨0, _⟩ => exact rhs_score_0 _ _
    | ⟨1, _⟩ => exact (rhs_score_1 _ _).trans hk)
  rw [el, er]

/-- Row `r` of the score payload. -/
theorem score_pay (z : Vec Ideal S4000x256 .f32) (w : Vec Ideal S64x256 .f32) (b q : Vec Ideal S1x64 .f32) (r : Fin 4000) :
    k0_pay2 (F := Ideal) z w b q (ix2 r (0 : Fin 1))
      = ∑ h : Fin 64, Ideal.tanh ((∑ d : Fin 256, z (ix2 r d) * w (ix2 h d)) + b (ix2 (0 : Fin 1) h)) * q (ix2 (0 : Fin 1) h) := by
  unfold k0_pay2
  refine (shapeCast_a_a1_apply _ _ r 0).trans ?_
  refine (multiReduction_add_ab_a_apply _ _ _ _ _ r).trans ?_
  refine Finset.sum_congr rfl fun h _ => ?_
  rw [mulf_apply, tanh_apply, addf_apply, shapeCast_self, shapeCast_self, broadcastTo_1b_ab_apply,
    broadcastTo_1b_ab_apply, score_matmul_apply]
  rfl

/-- Entry `(r, d)` of the combine payload. -/
theorem combine_pay (a0 a1 a2 : Vec Ideal S2000x1 .f32) (z0 z1 z2 : Vec Ideal S2000x256 .f32) (r : Fin 2000) (d : Fin 256) :
    k1_pay1 (F := Ideal) a0 a1 a2 z0 z1 z2 (ix2 r d)
      = a0 (ix2 r (0 : Fin 1)) * z0 (ix2 r d) + a1 (ix2 r (0 : Fin 1)) * z1 (ix2 r d) + a2 (ix2 r (0 : Fin 1)) * z2 (ix2 r d) := by
  unfold k1_pay1
  rw [shapeCast_self, shapeCast_self, shapeCast_self]
  rw [addf_apply, addf_apply, mulf_apply, mulf_apply, mulf_apply,
    broadcastTo_a1_ab_apply, broadcastTo_a1_ab_apply, broadcastTo_a1_ab_apply]

end Cert.KernelIdeal.Payload

end
-- ==== Proof.ScoreRegion.lean ====
/-
  The first kernel region, read as a value. Its grid has 25 points; point t stages rows
  4000·t … 4000·t + 3999 of the three node matrices, the three weight matrices and the four [1, 64]
  rows (three biases, one query) whole, and writes back rows 4000·t … of the [100000, 3] score array.
  The body stores three [4000, 1] columns side by side; column j holds stream j's scores of the
  staged rows. So what point t writes is block t of ONE whole-array function — entry (n, j) is
  stream j's score of node n — and the 25 blocks tile the score array.
  The bias and query rows reach the region as [1, 64] arrays; they enter the statement through what
  their entries (0, h) are (`hT`, `hC`, `hF`, `hq`: entry (h, 0) of a [64, 1] column).
-/
import proofs.«413630_j58652073394851_3_alg».proof.Proof.Gen.KernelIdeal.Frame
import proofs.«413630_j58652073394851_3_alg».proof.Proof.Spec
import proofs.«413630_j58652073394851_3_alg».proof.Proof.Payloads
import Idealize.ShloMosaic.Lib.Pipeline.Value
import Idealize.ShloMosaic.PureOps.Ideal.Laws

noncomputable section

namespace Cert.KernelIdeal.Score

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The node-matrix windows and the output window move with the grid point along the rows. -/
theorem idxZ : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_10.index t (0 : Fin 2) = t.val ∧ win0_10.index t (1 : Fin 2) = 0 :=
  (by decide +kernel : ∀ t : Fin grid0.N, _)

/-- The weight windows stay at block (0, 0). -/
theorem idxW : ∀ t : Fin cfg0.N, win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0 :=
  (by decide +kernel : ∀ t : Fin grid0.N, _)

/-- The bias and query rows stay at block (0, 0). -/
theorem idxB : ∀ t : Fin cfg0.N, win0_4.index t (0 : Fin 2) = 0 ∧ win0_4.index t (1 : Fin 2) = 0
    ∧ win0_6.index t (0 : Fin 2) = 0 ∧ win0_6.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The arrays as the region finds them, at their literal types. -/
abbrev ZT (c : Dev nD) : Vec Ideal S100000x256 .f32 := V c main_arg0
abbrev ZC (c : Dev nD) : Vec Ideal S100000x256 .f32 := V c main_arg1
abbrev ZF (c : Dev nD) : Vec Ideal S100000x256 .f32 := V c main_arg2
abbrev WT (c : Dev nD) : Vec Ideal S64x256 .f32 := V c main_arg3
abbrev WC (c : Dev nD) : Vec Ideal S64x256 .f32 := V c main_arg5
abbrev WF (c : Dev nD) : Vec Ideal S64x256 .f32 := V c main_arg7
abbrev BT (c : Dev nD) : Vec Ideal S1x64 .f32 := V c main_v0
abbrev BC (c : Dev nD) : Vec Ideal S1x64 .f32 := V c main_v1
abbrev BF (c : Dev nD) : Vec Ideal S1x64 .f32 := V c main_v2
abbrev QR (c : Dev nD) : Vec Ideal S1x64 .f32 := V c main_v3

/-- A node-matrix window's block at point t is rows 4000·t … of its array. -/
theorem iblk_ZT (c : Dev nD) (t : Fin cfg0.N) (y : S4000x256.Idx) (k : S100000x256.Idx)
    (hk0 : (k 0).val = 4000 * t.val + (y 0).val) (hk1 : (k 1).val = (y 1).val) :
    (iblk0 V c 0 t : Vec Ideal S4000x256 .f32) y = ZT V c k := by
  have e := idxZ t
  unfold iblk0
  rw [View.read_apply]
  show V c main_arg0 _ = V c main_arg0 _
  refine congrArg (V c main_arg0) (funext fun a => Fin.ext ?_)
  match a with
  | ⟨0, _⟩ => show win0_0.index t 0 * 4000 + 1 * (y 0).val = (k 0).val; rw [hk0]; omega
  | ⟨1, _⟩ => show win0_0.index t 1 * 256 + 1 * (y 1).val = (k 1).val; rw [hk1]; omega

theorem iblk_ZC (c : Dev nD) (t : Fin cfg0.N) (y : S4000x256.Idx) (k : S100000x256.Idx)
    (hk0 : (k 0).val = 4000 * t.val + (y 0).val) (hk1 : (k 1).val = (y 1).val) :
    (iblk0 V c 1 t : Vec Ideal S4000x256 .f32) y = ZC V c k := by
  have e := idxZ t
  unfold iblk0
  rw [View.read_apply]
  show V c main_arg1 _ = V c main_arg1 _
  refine congrArg (V c main_arg1) (funext fun a => Fin.ext ?_)
  match a with
  | ⟨0, _⟩ => show win0_1.index t 0 * 4000 + 1 * (y 0).val = (k 0).val; rw [hk0]; omega
  | ⟨1, _⟩ => show win0_1.index t 1 * 256 + 1 * (y 1).val = (k 1).val; rw [hk1]; omega

theorem iblk_ZF (c : Dev nD) (t : Fin cfg0.N) (y : S4000x256.Idx) (k : S100000x256.Idx)
    (hk0 : (k 0).val = 4000 * t.val + (y 0).val) (hk1 : (k 1).val = (y 1).val) :
    (iblk0 V c 2 t : Vec Ideal S4000x256 .f32) y = ZF V c k := by
  have e := idxZ t
  unfold iblk0
  rw [View.read_apply]
  show V c main_arg2 _ = V c main_arg2 _
  refine congrArg (V c main_arg2) (funext fun a => Fin.ext ?_)
  match a with
  | ⟨0, _⟩ => show win0_2.index t 0 * 4000 + 1 * (y 0).val = (k 0).val; rw [hk0]; omega
  | ⟨1, _⟩ => show win0_2.index t 1 * 256 + 1 * (y 1).val = (k 1).val; rw [hk1]; omega

/-- A weight window's one block is its array. -/
theorem iblk_WT (c : Dev nD) (t : Fin cfg0.N) (y : S64x256.Idx) :
    (iblk0 V c 3 t : Vec Ideal S64x256 .f32) y = WT V c y := by
  have e := idxW t
  unfold iblk0
  rw [View.read_apply]
  show V c main_arg3 _ = V c main_arg3 _
  refine congrArg (V c main_arg3) (funext fun a => Fin.ext ?_)
  match a with
  | ⟨0, _⟩ => show win0_3.index t 0 * 64 + 1 * (y 0).val = (y 0).val; omega
  | ⟨1, _⟩ => show win0_3.index t 1 * 256 + 1 * (y 1).val = (y 1).val; omega

theorem iblk_WC (c : Dev nD) (t : Fin cfg0.N) (y : S64x256.Idx) :
    (iblk0 V c 5 t : Vec Ideal S64x256 .f32) y = WC V c y := by
  have e := idxW t
  unfold iblk0
  rw [View.read_apply]
  show V c main_arg5 _ = V c main_arg5 _
  refine congrArg (V c main_arg5) (funext fun a => Fin.ext ?_)
  match a with
  | ⟨0, _⟩ => show win0_5.index t 0 * 64 + 1 * (y 0).val = (y 0).val; omega
  | ⟨1, _⟩ => show win0_5.index t 1 * 256 + 1 * (y 1).val = (y 1).val; omega

theorem iblk_WF (c : Dev nD) (t : Fin cfg0.N) (y : S64x256.Idx) :
    (iblk0 V c 7 t : Vec Ideal S64x256 .f32) y = WF V c y := by
  have e := idxW t
  unfold iblk0
  rw [View.read_apply]
  show V c main_arg7 _ = V c main_arg7 _
  refine congrArg (V c main_arg7) (funext fun a => Fin.ext ?_)
  match a with
  | ⟨0, _⟩ => show win0_7.index t 0 * 64 + 1 * (y 0).val = (y 0).val; omega
  | ⟨1, _⟩ => show win0_7.index t 1 * 256 + 1 * (y 1).val = (y 1).val; omega

/-- A bias or query row's one block is its array. -/
theorem iblk_BT (c : Dev nD) (t : Fin cfg0.N) (y : S1x64.Idx) :
    (iblk0 V c 4 t : Vec Ideal S1x64 .f32) y = BT V c y := by
  have e := idxB t
  unfold iblk0
  rw [View.read_apply]
  show V c main_v0 _ = V c main_v0 _
  refine congrArg (V c main_v0) (funext fun a => Fin.ext ?_)
  match a with
  | ⟨0, _⟩ => show win0_4.index t 0 * 1 + 1 * (y 0).val = (y 0).val; omega
  | ⟨1, _⟩ => show win0_4.index t 1 * 64 + 1 * (y 1).val = (y 1).val; omega

theorem iblk_BC (c : Dev nD) (t : Fin cfg0.N) (y : S1x64.Idx) :
    (iblk0 V c 6 t : Vec Ideal S1x64 .f32) y = BC V c y := by
  have e := idxB t
  unfold iblk0
  rw [View.read_apply]
  show V c main_v1 _ = V c main_v1 _
  refine congrArg (V c main_v1) (funext fun a => Fin.ext ?_)
  match a with
  | ⟨0, _⟩ => show win0_6.index t 0 * 1 + 1 * (y 0).val = (y 0).val; omega
  | ⟨1, _⟩ => show win0_6.index t 1 * 64 + 1 * (y 1).val = (y 1).val; omega

theorem iblk_BF (c : Dev nD) (t : Fin cfg0.N) (y : S1x64.Idx) :
    (iblk0 V c 8 t : Vec Ideal S1x64 .f32) y = BF V c y := by
  have e := idxB t
  unfold iblk0
  rw [View.read_apply]
  show V c main_v2 _ = V c main_v2 _
  refine congrArg (V c main_v2) (funext fun a => Fin.ext ?_)
  match a with
  | ⟨0, _⟩ => show win0_8.index t 0 * 1 + 1 * (y 0).val = (y 0).val; omega
  | ⟨1, _⟩ => show win0_8.index t 1 * 64 + 1 * (y 1).val = (y 1).val; omega

theorem iblk_Q (c : Dev nD) (t : Fin cfg0.N) (y : S1x64.Idx) :
    (iblk0 V c 9 t : Vec Ideal S1x64 .f32) y = QR V c y := by
  have e := idxB t
  unfold iblk0
  rw [View.read_apply]
  show V c main_v3 _ = V c main_v3 _
  refine congrArg (V c main_v3) (funext fun a => Fin.ext ?_)
  match a with
  | ⟨0, _⟩ => show win0_9.index t 0 * 1 + 1 * (y 0).val = (y 0).val; omega
  | ⟨1, _⟩ => show win0_9.index t 1 * 64 + 1 * (y 1).val = (y 1).val; omega

/-- Three column stores side by side, read at (r, j): column j's payload at row r. -/
theorem canon3 (p5 p4 p3 : Vec Ideal S4000x1 .f32) (r : Fin 4000) (jj : Fin 3) :
    View.canon ([⟨r0_5, p5⟩, ⟨r0_4, p4⟩, ⟨r0_3, p3⟩] : List (View.Piece (Elt Ideal) S4000x3 .f32)) (ix2 r jj)
      = if jj.val = 0 then p3 (ix2 r (0 : Fin 1)) else if jj.val = 1 then p4 (ix2 r (0 : Fin 1)) else p5 (ix2 r (0 : Fin 1)) := by
  let Gb : S4000x3.Idx → EReal := fun y =>
    if (y 1).val = 0 then p3 (ix2 (⟨(y 0).val, (y 0).isLt⟩ : Fin 4000) (0 : Fin 1))
    else if (y 1).val = 1 then p4 (ix2 (⟨(y 0).val, (y 0).isLt⟩ : Fin 4000) (0 : Fin 1))
    else p5 (ix2 (⟨(y 0).val, (y 0).isLt⟩ : Fin 4000) (0 : Fin 1))
  have hcol : ∀ (p : Vec Ideal S4000x1 .f32) (x : S4000x1.Idx) (n : Fin 4000), n.val = (x 0).val → p x = p (ix2 n (0 : Fin 1)) := by
    intro p x n hn
    refine congrArg p (funext fun a => Fin.ext ?_)
    match a with
    | ⟨0, _⟩ => exact hn.symm
    | ⟨1, _⟩ => have h1 : (x 1).val < 1 := (x 1).isLt; show (x 1).val = 0; omega
  refine View.canon_apply_of_pieces Gb _ (fun p hp x => ?_) (ix2 r jj) (cover0_10 p5 p4 p3 (ix2 r jj))
  simp only [List.mem_cons, List.not_mem_nil, or_false] at hp
  rcases hp with rfl | rfl | rfl
  · have h1 : ((r0_5.emb x) 1).val = 2 := by
      have hx : (x 1).val < 1 := (x 1).isLt
      show 2 + 1 * (x 1).val = 2; omega
    show p5 x = if ((r0_5.emb x) 1).val = 0 then _ else if ((r0_5.emb x) 1).val = 1 then _ else _
    rw [if_neg (by omega), if_neg (by omega)]
    exact hcol p5 x _ (by show 0 + 1 * (x 0).val = (x 0).val; omega)
  · have h1 : ((r0_4.emb x) 1).val = 1 := by
      have hx : (x 1).val < 1 := (x 1).isLt
      show 1 + 1 * (x 1).val = 1; omega
    show p4 x = if ((r0_4.emb x) 1).val = 0 then _ else if ((r0_4.emb x) 1).val = 1 then _ else _
    rw [if_neg (by omega), if_pos h1]
    exact hcol p4 x _ (by show 0 + 1 * (x 0).val = (x 0).val; omega)
  · have h1 : ((r0_3.emb x) 1).val = 0 := by
      have hx : (x 1).val < 1 := (x 1).isLt
      show 0 + 1 * (x 1).val = 0; omega
    show p3 x = if ((r0_3.emb x) 1).val = 0 then _ else _
    rw [if_pos h1]
    exact hcol p3 x _ (by show 0 + 1 * (x 0).val = (x 0).val; omega)

section
variable (c : Dev nD) (bT bC bF q : Vec Ideal S64x1 .f32)

/-- What the score array holds after the region. -/
abbrev G : Vec Ideal S100000x3 .f32 :=
  Cert.Spec.packed (Cert.Spec.score (ZT V c) (WT V c) bT q) (Cert.Spec.score (ZC V c) (WC V c) bC q) (Cert.Spec.score (ZF V c) (WF V c) bF q)

variable (hT : ∀ h : Fin 64, BT V c (ix2 (0 : Fin 1) h) = bT (ix2 h (0 : Fin 1)))
  (hC : ∀ h : Fin 64, BC V c (ix2 (0 : Fin 1) h) = bC (ix2 h (0 : Fin 1)))
  (hF : ∀ h : Fin 64, BF V c (ix2 (0 : Fin 1) h) = bF (ix2 h (0 : Fin 1)))
  (hq : ∀ h : Fin 64, QR V c (ix2 (0 : Fin 1) h) = q (ix2 h (0 : Fin 1)))

include hT hC hF hq in
/-- WHAT POINT t WRITES BACK is block t of `G`. -/
theorem flushed_eq (t : Fin cfg0.N) :
    (dat0 V c).flushed 10 t = ((cfg0.win 10).blk t).view.read (Elt Ideal) (G V c bT bC bF q) := by
  show (cfg0.win 10).cut (grid0.coords t) ((dat0 V c).after 10 t) = _
  rw [after0_10]
  unfold out0_10
  simp only [View.ld_unit_zero (S := S4000x256) hz, View.ld_unit_zero (S := S64x256) hz, View.ld_unit_zero (S := S1x64) hz]
  funext j
  have hj0 : (j 0).val < 4000 := (j 0).isLt
  have hj1 : (j 1).val < 3 := (j 1).isLt
  obtain ⟨-, -, -, -, -, -, e0, e1⟩ := idxZ t
  have hx : (cfg0.win 10).xinj (grid0.coords t) j = ix2 (⟨(j 0).val, hj0⟩ : Fin 4000) (⟨(j 1).val, hj1⟩ : Fin 3) :=
    funext fun a => by match a with | ⟨0, _⟩ => rfl | ⟨1, _⟩ => rfl
  have hn0 : ((((cfg0.win 10).blk t).view.emb j) 0).val = 4000 * t.val + (j 0).val := by
    show win0_10.index t 0 * 4000 + 1 * (j 0).val = _; rw [e0]; omega
  have hn1 : ((((cfg0.win 10).blk t).view.emb j) 1).val = (j 1).val := by
    show win0_10.index t 1 * 3 + 1 * (j 1).val = _; rw [e1]; omega
  show View.canon _ ((cfg0.win 10).xinj (grid0.coords t) j) = G V c bT bC bF q (((cfg0.win 10).blk t).view.emb j)
  rw [hx, canon3]
  show _ = if ((((cfg0.win 10).blk t).view.emb j) 1).val = 0 then _ else if ((((cfg0.win 10).blk t).view.emb j) 1).val = 1 then _ else _
  rw [hn1]
  refine ite_congr rfl (fun _ => ?_) (fun _ => ite_congr rfl (fun _ => ?_) (fun _ => ?_))
  ·
    rw [Cert.KernelIdeal.Payload.score_pay]
    unfold Cert.Spec.score
    refine Finset.sum_congr rfl fun h _ => ?_
    refine congrArg₂ (· * ·) (congrArg Ideal.tanh (congrArg₂ (· + ·) (Finset.sum_congr rfl fun d _ => congrArg₂ (· * ·) ?_ ?_) ?_)) ?_
    · exact iblk_ZT V c t _ _ hn0 rfl
    · exact iblk_WT V c t _
    · exact (iblk_BT V c t _).trans (hT h)
    · exact (iblk_Q V c t _).trans (hq h)
  ·
    rw [Cert.KernelIdeal.Payload.pay3_eq_pay2]
    rw [Cert.KernelIdeal.Payload.score_pay]
    unfold Cert.Spec.score
    refine Finset.sum_congr rfl fun h _ => ?_
    refine congrArg₂ (· * ·) (congrArg Ideal.tanh (congrArg₂ (· + ·) (Finset.sum_congr rfl fun d _ => congrArg₂ (· * ·) ?_ ?_) ?_)) ?_
    · exact iblk_ZC V c t _ _ hn0 rfl
    · exact iblk_WC V c t _
    · exact (iblk_BC V c t _).trans (hC h)
    · exact (iblk_Q V c t _).trans (hq h)
  ·
    rw [Cert.KernelIdeal.Payload.pay1_eq_pay2]
    rw [Cert.KernelIdeal.Payload.score_pay]
    unfold Cert.Spec.score
    refine Finset.sum_congr rfl fun h _ => ?_
    refine congrArg₂ (· * ·) (congrArg Ideal.tanh (congrArg₂ (· + ·) (Finset.sum_congr rfl fun d _ => congrArg₂ (· * ·) ?_ ?_) ?_)) ?_
    · exact iblk_ZF V c t _ _ hn0 rfl
    · exact iblk_WF V c t _
    · exact (iblk_BF V c t _).trans (hF h)
    · exact (iblk_Q V c t _).trans (hq h)

/-- An index of the score array is in point t's block iff each coordinate is in the block's range. -/
theorem mem_blk (t : Fin cfg0.N) (i : S100000x3.Idx) :
    i ∈ ((cfg0.win 10).blk t).view.set ↔ ∀ a : Fin 2, win0_10.index t a * S4000x3.size a ≤ (i a).val ∧ (i a).val < win0_10.index t a * S4000x3.size a + S4000x3.size a := by
  show i ∈ ((View.whole main_v4).slice (win0_10.rect t)).set ↔ _
  rw [View.set_slice_whole, Rect.mem_set_unit]
  exact Iff.rfl

/-- Row n lies in the block of point n / 4000: the 25 blocks tile the array. -/
theorem cover (i : S100000x3.Idx) : ∃ t : Fin cfg0.N, (cfg0.win 10).flush t = true ∧ i ∈ ((cfg0.win 10).blk t).view.set := by
  have hi0 : (i 0).val < 100000 := (i 0).isLt
  have hi1 : (i 1).val < 3 := (i 1).isLt
  have hN : cfg0.N = 25 := N_0
  let t : Fin cfg0.N := ⟨(i 0).val / 4000, by rw [hN]; omega⟩
  obtain ⟨-, -, -, -, -, -, e0, e1⟩ := idxZ t
  refine ⟨t, flush0_10 t, ?_⟩
  rw [mem_blk]
  intro a
  have ht : t.val = (i 0).val / 4000 := rfl
  match a with
  | ⟨0, _⟩ => show win0_10.index t 0 * 4000 ≤ (i 0).val ∧ (i 0).val < win0_10.index t 0 * 4000 + 4000; rw [e0, ht]; omega
  | ⟨1, _⟩ => show win0_10.index t 1 * 3 ≤ (i 1).val ∧ (i 1).val < win0_10.index t 1 * 3 + 3; rw [e1]; omega

include hT hC hF hq in
/-- THE SCORE ARRAY after the region. -/
theorem final : (dat0 V c).arrAt 10 cfg0.N = G V c bT bC bF q :=
  (dat0 V c).arrAt_eq_of_cover 10 (G V c bT bC bF q) (fun t _ => flushed_eq V c bT bC bF q hT hC hF hq t) cover

end

end Cert.KernelIdeal.Score

end
-- ==== Proof.SoftmaxChain.lean ====
/-
  The host operations between the two kernel regions: jax's softmax down the node axis of the
  [100000, 3] score array, each of the three columns by itself. Read at an index, column j of the
  result is `Cert.Spec.weight` of column j of the scores.
-/
import proofs.«413630_j58652073394851_3_alg».proof.Proof.Gen.KernelIdeal
import proofs.«413630_j58652073394851_3_alg».proof.Proof.Spec
import Idealize.ShloMosaic.PureOps.Ideal.Laws
import Idealize.ShloMosaic.Lib.ValueIdx
import Idealize.ShloMosaic.Lib.Pipeline.Value

noncomputable section

namespace Cert.KernelIdeal.Softmax

open Cert.KernelIdeal Cert.KernelIdeal.Gen
open Idealize.ShloMosaic Idealize.ShloMosaic.TcCoe Idealize.ShloMosaic.ValueIdx

variable {F : FTy → Type} [FloatOps F]

/-- The shift array: the column maxima (against the -∞ pattern) spread back over the rows. -/
def shiftArr (A : FVec F S100000x3 .f32) : FVec F S100000x3 .f32 :=
  broadcastInDim S100000x3 ![0, 1] bcast_S1x3_S100000x3_0_1
    (broadcastInDim S1x3 ![1] bcast_S3_S1x3_1
      (maximumf (broadcastInDim S3 ![] bcast_S_S3 (constant S_ .f32 0xFF800000#32))
        (Host.reduce FloatOps.maximumf A (constant S_ .f32 0xFF800000#32) reducesTo_S100000x3_S3_d0 h_S_)))

/-- The whole chain of host operations, as one function of the score array. -/
def softmaxOps (A : FVec F S100000x3 .f32) : FVec F S100000x3 .f32 :=
  Host.divf (Host.exp (subf A (shiftArr A)))
    (broadcastInDim S100000x3 ![0, 1] bcast_S1x3_S100000x3_0_1
      (broadcastInDim S1x3 ![1] bcast_S3_S1x3_1
        (Host.reduceAdd (Host.exp (subf A (shiftArr A))) (constant S_ .f32 0x00000000#32) reducesTo_S100000x3_S3_d0 h_S_)))

/-! ## Reading the pieces at an index -/

/-- Dropping the row axis of [100000, 3] leaves [3]. -/
theorem reduces_d0 : S100000x3.Reduces [0] S3 := by decide

/-- Column index `j` with the row coordinate `k` inserted is the index (k, j). -/
theorem lift_eq (j : Fin 3) (k : Fin (S100000x3.size 0)) :
    reduces_d0.lift (ix1 j) k = ix2 (k : Fin 100000) j := by
  funext c
  match c with
  | ⟨0, _⟩ => exact Fin.ext rfl
  | ⟨1, _⟩ => exact Fin.ext rfl

/-- A [3] vector spread to [1, 3] and then down the 100000 rows reads, at (n, j), its entry j. -/
theorem bcast2_apply {α : Type} (v : S3.Idx → α) (n : Fin 100000) (j : Fin 3) :
    broadcastInDim S100000x3 ![0, 1] bcast_S1x3_S100000x3_0_1 (broadcastInDim S1x3 ![1] bcast_S3_S1x3_1 v) (ix2 n j)
      = v (ix1 j) := by
  refine (broadcastInDim_apply ![0, 1] bcast_S1x3_S100000x3_0_1 _ (ix2 n j) (ix2 (0 : Fin 1) j) ?_).trans ?_
  · intro a
    match a with
    | ⟨0, _⟩ => exact (if_pos rfl).symm
    | ⟨1, _⟩ => exact (if_neg (show ¬ (3 : Nat) = 1 by decide)).symm
  · refine broadcastInDim_apply ![1] bcast_S3_S1x3_1 v (ix2 (0 : Fin 1) j) (ix1 j) ?_
    intro a
    match a with
    | ⟨0, _⟩ => exact (if_neg (show ¬ (3 : Nat) = 1 by decide)).symm

/-- A scalar pattern spread over [3] reads the extended real the pattern encodes, everywhere. -/
theorem splat_apply (b : BitVec (FTy.bits .f32)) (i : S3.Idx) :
    broadcastInDim S3 ![] bcast_S_S3 (constant (F := Ideal) S_ .f32 b) i = Ideal.ofBits .f32 b := by
  refine (broadcastInDim_apply ![] bcast_S_S3 _ i ix0 (fun a => a.elim0)).trans ?_
  exact constant_apply (φ := .f32) b ix0

/-- The host's quotient at an index is the quotient of the elements. -/
theorem hostDivf_at {s : Shape} (a b : FVec Ideal s .f32) (i : s.Idx) :
    Host.divf a b i = Ideal.div (a i) (b i) := rfl

/-- The host's exponential at an index is the exponential of the element. -/
theorem hostExp_at {s : Shape} (a : FVec Ideal s .f32) (i : s.Idx) :
    Host.exp a i = Ideal.exp (a i) := rfl

/-- The shift array at (n, j) is the specification's shift of column j: the -∞ pattern against the
    maximum of the column folded from that pattern. -/
theorem shiftArr_apply (A : FVec Ideal S100000x3 .f32) (n : Fin 100000) (j : Fin 3) :
    shiftArr (F := Ideal) A (ix2 n j) = Cert.Spec.shift (Cert.Spec.column A j) := by
  unfold shiftArr
  refine (bcast2_apply _ n j).trans ?_
  refine (maximumf_apply _ _ (ix1 j)).trans ?_
  rw [splat_apply,
    Host.reduce_eq_fold_single FloatOps.maximumf A _ reducesTo_S100000x3_S3_d0 reduces_d0 h_S_ (ix1 j)]
  -- the folded function is column j of the scores
  have hfun : (A ∘ reduces_d0.lift (ix1 j)) = Cert.Spec.column A j := by
    funext k
    exact congrArg A (lift_eq j k)
  rw [hfun]
  -- over an arbitrary column the two folds agree term by term: the operation is `max` and the
  -- initial value is the -∞ pattern's extended real
  generalize Cert.Spec.column A j = s
  rfl

/-- The chain at (n, j) is the softmax weight of node n within column j. -/
theorem softmaxOps_apply (A : FVec Ideal S100000x3 .f32) (n : Fin 100000) (j : Fin 3) :
    softmaxOps (F := Ideal) A (ix2 n j) = Cert.Spec.weight (Cert.Spec.column A j) n := by
  -- the exponentials of the shifted scores, at every row of column j
  have hexp : ∀ m : Fin 100000, Host.exp (subf A (shiftArr A)) (ix2 m j)
      = Ideal.exp (Cert.Spec.column A j m - Cert.Spec.shift (Cert.Spec.column A j)) := by
    intro m
    rw [hostExp_at, subf_apply, shiftArr_apply]
    rfl
  unfold softmaxOps
  rw [hostDivf_at, bcast2_apply, hexp n]
  unfold Cert.Spec.weight
  refine congrArg (Ideal.div _) ?_
  -- the denominator: the zero pattern plus the sum of the exponentials down column j
  simp only [Host.reduceAdd, Ideal.hostReduceAdd_def]
  rw [Ideal.hostReduceAdd_single reducesTo_S100000x3_S3_d0 reduces_d0 _ _ (ix1 j), constant_apply]
  refine congrArg (Ideal.ofBits .f32 0x00000000#32 + ·) ?_
  refine Finset.sum_congr rfl (fun k _ => ?_)
  rw [lift_eq]
  exact hexp k

/-- Column by column the chain is the specification's softmax weight. -/
theorem softmaxOps_eq (A : FVec Ideal S100000x3 .f32) :
    softmaxOps (F := Ideal) A
      = Cert.Spec.packed (Cert.Spec.weight (Cert.Spec.column A 0)) (Cert.Spec.weight (Cert.Spec.column A 1)) (Cert.Spec.weight (Cert.Spec.column A 2)) := by
  funext i
  obtain ⟨n, j, rfl⟩ : ∃ (n : Fin 100000) (j : Fin 3), i = ix2 n j := ⟨i 0, i 1, eq_ix2 i⟩
  rw [softmaxOps_apply]
  unfold Cert.Spec.packed
  match j with
  | ⟨0, _⟩ => exact (if_pos rfl).symm
  | ⟨1, _⟩ => exact ((if_neg (show ¬ (1 : Nat) = 0 by decide)).trans (if_pos rfl)).symm
  | ⟨2, _⟩ =>
    exact ((if_neg (show ¬ (2 : Nat) = 0 by decide)).trans (if_neg (show ¬ (2 : Nat) = 1 by decide))).symm

end Cert.KernelIdeal.Softmax

end
-- ==== Proof.CombineRegion.lean ====
/-
  The second kernel region, read as a value. Its grid has 50 points; point t stages rows
  2000·t … 2000·t + 1999 of the three node matrices and of the [100000, 3] weight array, and writes
  back the same rows of the result. What point t writes is therefore block t of ONE whole-array
  function — row n of the result is the three matrices' rows n scaled by the weight array's entries
  (n, 0), (n, 1), (n, 2) and added — and the 50 blocks tile the result array, so after the region
  the result array holds that function of the region's entry contents.
-/
import proofs.«413630_j58652073394851_3_alg».proof.Proof.Gen.KernelIdeal.Frame
import proofs.«413630_j58652073394851_3_alg».proof.Proof.Spec
import proofs.«413630_j58652073394851_3_alg».proof.Proof.Payloads
import Idealize.ShloMosaic.Lib.Pipeline.Value
import Idealize.ShloMosaic.PureOps.Ideal.Laws

noncomputable section

namespace Cert.KernelIdeal.Combine

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window of the region moves with the grid point along the rows and stays at block 0 across. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The arrays as the region finds them, at their literal types. -/
abbrev ZT (c : Dev nD) : Vec Ideal S100000x256 .f32 := V c main_arg0
abbrev ZC (c : Dev nD) : Vec Ideal S100000x256 .f32 := V c main_arg1
abbrev ZF (c : Dev nD) : Vec Ideal S100000x256 .f32 := V c main_arg2
abbrev AW (c : Dev nD) : Vec Ideal S100000x3 .f32 := V c main_v15

/-- What the result array holds after the region. -/
abbrev G (c : Dev nD) : Vec Ideal S100000x256 .f32 :=
  Cert.Spec.mix (Cert.Spec.column (AW V c) 0) (Cert.Spec.column (AW V c) 1) (Cert.Spec.column (AW V c) 2) (ZT V c) (ZC V c) (ZF V c)

/-- A node-matrix window's block at point t is rows 2000·t … of its array. -/
theorem iblk_T (c : Dev nD) (t : Fin cfg1.N) (y : S2000x256.Idx) (k : S100000x256.Idx)
    (hk0 : (k 0).val = 2000 * t.val + (y 0).val) (hk1 : (k 1).val = (y 1).val) :
    (iblk1 V c 0 t : Vec Ideal S2000x256 .f32) y = ZT V c k := by
  obtain ⟨e0, e1, -⟩ := idx_facts t
  unfold iblk1
  rw [View.read_apply]
  show V c main_arg0 _ = V c main_arg0 _
  refine congrArg (V c main_arg0) (funext fun a => Fin.ext ?_)
  match a with
  | ⟨0, _⟩ => show win1_0.index t 0 * 2000 + 1 * (y 0).val = (k 0).val; rw [e0, hk0]; omega
  | ⟨1, _⟩ => show win1_0.index t 1 * 256 + 1 * (y 1).val = (k 1).val; rw [e1, hk1]; omega

theorem iblk_C (c : Dev nD) (t : Fin cfg1.N) (y : S2000x256.Idx) (k : S100000x256.Idx)
    (hk0 : (k 0).val = 2000 * t.val + (y 0).val) (hk1 : (k 1).val = (y 1).val) :
    (iblk1 V c 1 t : Vec Ideal S2000x256 .f32) y = ZC V c k := by
  obtain ⟨-, -, e0, e1, -⟩ := idx_facts t
  unfold iblk1
  rw [View.read_apply]
  show V c main_arg1 _ = V c main_arg1 _
  refine congrArg (V c main_arg1) (funext fun a => Fin.ext ?_)
  match a with
  | ⟨0, _⟩ => show win1_1.index t 0 * 2000 + 1 * (y 0).val = (k 0).val; rw [e0, hk0]; omega
  | ⟨1, _⟩ => show win1_1.index t 1 * 256 + 1 * (y 1).val = (k 1).val; rw [e1, hk1]; omega

theorem iblk_F (c : Dev nD) (t : Fin cfg1.N) (y : S2000x256.Idx) (k : S100000x256.Idx)
    (hk0 : (k 0).val = 2000 * t.val + (y 0).val) (hk1 : (k 1).val = (y 1).val) :
    (iblk1 V c 2 t : Vec Ideal S2000x256 .f32) y = ZF V c k := by
  obtain ⟨-, -, -, -, e0, e1, -⟩ := idx_facts t
  unfold iblk1
  rw [View.read_apply]
  show V c main_arg2 _ = V c main_arg2 _
  refine congrArg (V c main_arg2) (funext fun a => Fin.ext ?_)
  match a with
  | ⟨0, _⟩ => show win1_2.index t 0 * 2000 + 1 * (y 0).val = (k 0).val; rw [e0, hk0]; omega
  | ⟨1, _⟩ => show win1_2.index t 1 * 256 + 1 * (y 1).val = (k 1).val; rw [e1, hk1]; omega

/-- The weight window's block at point t is rows 2000·t … of the weight array. -/
theorem iblk_A (c : Dev nD) (t : Fin cfg1.N) (y : S2000x3.Idx) (k : S100000x3.Idx)
    (hk0 : (k 0).val = 2000 * t.val + (y 0).val) (hk1 : (k 1).val = (y 1).val) :
    (iblk1 V c 3 t : Vec Ideal S2000x3 .f32) y = AW V c k := by
  obtain ⟨-, -, -, -, -, -, e0, e1, -⟩ := idx_facts t
  unfold iblk1
  rw [View.read_apply]
  show V c main_v15 _ = V c main_v15 _
  refine congrArg (V c main_v15) (funext fun a => Fin.ext ?_)
  match a with
  | ⟨0, _⟩ => show win1_3.index t 0 * 2000 + 1 * (y 0).val = (k 0).val; rw [e0, hk0]; omega
  | ⟨1, _⟩ => show win1_3.index t 1 * 3 + 1 * (y 1).val = (k 1).val; rw [e1, hk1]; omega

/-- WHAT POINT t WRITES BACK is block t of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S2000x256) hz]
  funext j
  have hj0 : (j 0).val < 2000 := (j 0).isLt
  have hj1 : (j 1).val < 256 := (j 1).isLt
  obtain ⟨-, -, -, -, -, -, -, -, e0, e1⟩ := idx_facts t
  have hx : (cfg1.win 4).xinj (grid1.coords t) j = ix2 (⟨(j 0).val, hj0⟩ : Fin 2000) (⟨(j 1).val, hj1⟩ : Fin 256) :=
    funext fun a => by match a with | ⟨0, _⟩ => rfl | ⟨1, _⟩ => rfl
  have hn0 : ((((cfg1.win 4).blk t).view.emb j) 0).val = 2000 * t.val + (j 0).val := by
    show win1_4.index t 0 * 2000 + 1 * (j 0).val = _; rw [e0]; omega
  have hn1 : ((((cfg1.win 4).blk t).view.emb j) 1).val = (j 1).val := by
    show win1_4.index t 1 * 256 + 1 * (j 1).val = _; rw [e1]; omega
  show k1_pay1 (F := Ideal) _ _ _ _ _ _ ((cfg1.win 4).xinj (grid1.coords t) j) = G V c (((cfg1.win 4).blk t).view.emb j)
  rw [hx, Cert.KernelIdeal.Payload.combine_pay]
  show _ = AW V c (ix2 ((((cfg1.win 4).blk t).view.emb j) 0) 0) * ZT V c (((cfg1.win 4).blk t).view.emb j)
      + AW V c (ix2 ((((cfg1.win 4).blk t).view.emb j) 0) 1) * ZC V c (((cfg1.win 4).blk t).view.emb j)
      + AW V c (ix2 ((((cfg1.win 4).blk t).view.emb j) 0) 2) * ZF V c (((cfg1.win 4).blk t).view.emb j)
  refine congrArg₂ (· + ·) (congrArg₂ (· + ·) (congrArg₂ (· * ·) ?_ ?_) (congrArg₂ (· * ·) ?_ ?_)) (congrArg₂ (· * ·) ?_ ?_)
  · exact iblk_A V c t _ _ (by show _ = 2000 * t.val + (0 + 1 * (j 0).val); rw [hn0]; omega) rfl
  · exact iblk_T V c t _ _ hn0 hn1
  · exact iblk_A V c t _ _ (by show _ = 2000 * t.val + (0 + 1 * (j 0).val); rw [hn0]; omega) rfl
  · exact iblk_C V c t _ _ hn0 hn1
  · exact iblk_A V c t _ _ (by show _ = 2000 * t.val + (0 + 1 * (j 0).val); rw [hn0]; omega) rfl
  · exact iblk_F V c t _ _ hn0 hn1

/-- An index of the result array is in point t's block iff each coordinate is in the block's range. -/
theorem mem_blk (t : Fin cfg1.N) (i : S100000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v16).slice (win1_4.rect t)).set ↔ _
  rw [View.set_slice_whole, Rect.mem_set_unit]
  exact Iff.rfl

/-- Row n lies in the block of point n / 2000: the 50 blocks tile the array. -/
theorem cover (i : S100000x256.Idx) : ∃ t : Fin cfg1.N, (cfg1.win 4).flush t = true ∧ i ∈ ((cfg1.win 4).blk t).view.set := by
  have hi0 : (i 0).val < 100000 := (i 0).isLt
  have hi1 : (i 1).val < 256 := (i 1).isLt
  have hN : cfg1.N = 50 := N_1
  let t : Fin cfg1.N := ⟨(i 0).val / 2000, by rw [hN]; omega⟩
  obtain ⟨-, -, -, -, -, -, -, -, e0, e1⟩ := idx_facts t
  refine ⟨t, flush1_4 t, ?_⟩
  rw [mem_blk]
  intro a
  have ht : t.val = (i 0).val / 2000 := rfl
  match a with
  | ⟨0, _⟩ => show win1_4.index t 0 * 2000 ≤ (i 0).val ∧ (i 0).val < win1_4.index t 0 * 2000 + 2000; rw [e0, ht]; omega
  | ⟨1, _⟩ => show win1_4.index t 1 * 256 ≤ (i 1).val ∧ (i 1).val < win1_4.index t 1 * 256 + 256; rw [e1]; omega

/-- THE RESULT ARRAY after the region. -/
theorem final (c : Dev nD) : (dat1 V c).arrAt 4 cfg1.N = G V c :=
  (dat1 V c).arrAt_eq_of_cover 4 (G V c) (fun t _ => flushed_eq V c t) cover

end Cert.KernelIdeal.Combine

end
-- ==== Proof.KernelValue.lean ====
/-
  The kernel program's result as a function of its arguments.
  The run leaves the result array at the contents the second region's write-backs leave. Walking
  back: the second region turns its entry contents into the three node matrices' rows scaled by the
  weight array's columns; the weight array is the host softmax of the score array the first region
  left; the score array is the three streams' scores of the region's entry contents; and those entry
  contents are the arguments themselves, the bias and query columns reshaped to rows (entry (0, h)
  of a row is entry (h, 0) of its column). Chained, the result is `Cert.Spec.result` of the arguments.
-/
import proofs.«413630_j58652073394851_3_alg».proof.Proof.KernelRun
import proofs.«413630_j58652073394851_3_alg».proof.Proof.ScoreRegion
import proofs.«413630_j58652073394851_3_alg».proof.Proof.SoftmaxChain
import proofs.«413630_j58652073394851_3_alg».proof.Proof.CombineRegion
import Idealize.ShloMosaic.Lib.StableHlo.Run

noncomputable section

namespace Cert.KernelIdeal.Whole

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The first region's entry contents: the reshapes before it write no argument -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg7 (c : Dev nD) : V1 m ρ c main_arg7 = m ((c : Thread nD τ).loc main_arg7) := by
  show StableHlo.after hostOps0 (W0 m ρ c) (Proc.devRef .tc main_arg7) = _
  after_results

/-- A [64, 1] column reshaped to a [1, 64] row: entry (0, h) of the row is entry (h, 0) of the column. -/
theorem row_of_column (x : Vec Ideal S64x1 .f32) (h : Fin 64) :
    shapeCast S1x64 x shapeCasts_S64x1_S1x64 (ix2 (0 : Fin 1) h) = x (ix2 h (0 : Fin 1)) :=
  shapeCast_apply _ shapeCasts_S64x1_S1x64 _ _ (by
    rw [Shape.rowMajor_val_two, Shape.rowMajor_val_two]
    show h.val * 1 + 0 = 0 * 64 + h.val
    omega)

theorem V1_v0 (c : Dev nD) (h : Fin 64) :
    (V1 m ρ c main_v0 : Vec Ideal S1x64 .f32) (ix2 (0 : Fin 1) h) = (m ((c : Thread nD τ).loc main_arg4) : Vec Ideal S64x1 .f32) (ix2 h (0 : Fin 1)) := by
  have e : (V1 m ρ c main_v0 : Vec Ideal S1x64 .f32) = shapeCast S1x64 (m ((c : Thread nD τ).loc main_arg4) : Vec Ideal S64x1 .f32) shapeCasts_S64x1_S1x64 := by
    show StableHlo.after hostOps0 (W0 m ρ c) (Proc.devRef .tc main_v0) = _
    after_results
    rfl
  rw [e]; exact row_of_column _ h
theorem V1_v1 (c : Dev nD) (h : Fin 64) :
    (V1 m ρ c main_v1 : Vec Ideal S1x64 .f32) (ix2 (0 : Fin 1) h) = (m ((c : Thread nD τ).loc main_arg6) : Vec Ideal S64x1 .f32) (ix2 h (0 : Fin 1)) := by
  have e : (V1 m ρ c main_v1 : Vec Ideal S1x64 .f32) = shapeCast S1x64 (m ((c : Thread nD τ).loc main_arg6) : Vec Ideal S64x1 .f32) shapeCasts_S64x1_S1x64 := by
    show StableHlo.after hostOps0 (W0 m ρ c) (Proc.devRef .tc main_v1) = _
    after_results
    rfl
  rw [e]; exact row_of_column _ h
theorem V1_v2 (c : Dev nD) (h : Fin 64) :
    (V1 m ρ c main_v2 : Vec Ideal S1x64 .f32) (ix2 (0 : Fin 1) h) = (m ((c : Thread nD τ).loc main_arg8) : Vec Ideal S64x1 .f32) (ix2 h (0 : Fin 1)) := by
  have e : (V1 m ρ c main_v2 : Vec Ideal S1x64 .f32) = shapeCast S1x64 (m ((c : Thread nD τ).loc main_arg8) : Vec Ideal S64x1 .f32) shapeCasts_S64x1_S1x64 := by
    show StableHlo.after hostOps0 (W0 m ρ c) (Proc.devRef .tc main_v2) = _
    after_results
    rfl
  rw [e]; exact row_of_column _ h
theorem V1_v3 (c : Dev nD) (h : Fin 64) :
    (V1 m ρ c main_v3 : Vec Ideal S1x64 .f32) (ix2 (0 : Fin 1) h) = (m ((c : Thread nD τ).loc main_arg9) : Vec Ideal S64x1 .f32) (ix2 h (0 : Fin 1)) := by
  have e : (V1 m ρ c main_v3 : Vec Ideal S1x64 .f32) = shapeCast S1x64 (m ((c : Thread nD τ).loc main_arg9) : Vec Ideal S64x1 .f32) shapeCasts_S64x1_S1x64 := by
    show StableHlo.after hostOps0 (W0 m ρ c) (Proc.devRef .tc main_v3) = _
    after_results
    rfl
  rw [e]; exact row_of_column _ h

/-! ## The score array the first region leaves -/

theorem scores_eq (c : Dev nD) :
    (W2 m ρ c (Proc.devRef .tc main_v4) : Vec Ideal S100000x3 .f32)
      = Cert.Spec.packed (Cert.Spec.score (m ((c : Thread nD τ).loc main_arg0)) (m ((c : Thread nD τ).loc main_arg3)) (m ((c : Thread nD τ).loc main_arg4)) (m ((c : Thread nD τ).loc main_arg9)))
          (Cert.Spec.score (m ((c : Thread nD τ).loc main_arg1)) (m ((c : Thread nD τ).loc main_arg5)) (m ((c : Thread nD τ).loc main_arg6)) (m ((c : Thread nD τ).loc main_arg9)))
          (Cert.Spec.score (m ((c : Thread nD τ).loc main_arg2)) (m ((c : Thread nD τ).loc main_arg7)) (m ((c : Thread nD τ).loc main_arg8)) (m ((c : Thread nD τ).loc main_arg9))) := by
  refine (W2_arr m ρ c 10).trans ?_
  refine (Cert.KernelIdeal.Score.final (V1 m ρ) c (m ((c : Thread nD τ).loc main_arg4)) (m ((c : Thread nD τ).loc main_arg6)) (m ((c : Thread nD τ).loc main_arg8)) (m ((c : Thread nD τ).loc main_arg9))
    (V1_v0 m ρ c) (V1_v1 m ρ c) (V1_v2 m ρ c) (V1_v3 m ρ c)).trans ?_
  show Cert.Spec.packed (Cert.Spec.score (V1 m ρ c main_arg0) (V1 m ρ c main_arg3) _ _)
      (Cert.Spec.score (V1 m ρ c main_arg1) (V1 m ρ c main_arg5) _ _)
      (Cert.Spec.score (V1 m ρ c main_arg2) (V1 m ρ c main_arg7) _ _) = _
  rw [V1_arg0 m ρ c, V1_arg1 m ρ c, V1_arg2 m ρ c, V1_arg3 m ρ c, V1_arg5 m ρ c, V1_arg7 m ρ c]

/-! ## The second region's entry contents -/

/-- The weight array is the host softmax of the score array. -/
theorem V3_v15 (c : Dev nD) :
    (V3 m ρ c main_v15 : Vec Ideal S100000x3 .f32) = Cert.KernelIdeal.Softmax.softmaxOps (F := Ideal) (W2 m ρ c (Proc.devRef .tc main_v4)) := by
  show StableHlo.after hostOps1 (W2 m ρ c) (Proc.devRef .tc main_v15) = _
  generalize W2 m ρ c = W
  after_results
  rfl

/-- No host operation and no region writes a node matrix: the second region finds them as launched. -/
theorem V3_arg0 (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)
theorem V3_arg1 (c : Dev nD) : V3 m ρ c main_arg1 = m ((c : Thread nD τ).loc main_arg1) :=
  ((W4_arr m ρ c 1).trans (((dat1 (V3 m ρ) c).arrAt_in 1 rfl _).trans (A_eq1 (V3 m ρ) c 1))).symm.trans (W4_main_arg1 m ρ c)
theorem V3_arg2 (c : Dev nD) : V3 m ρ c main_arg2 = m ((c : Thread nD τ).loc main_arg2) :=
  ((W4_arr m ρ c 2).trans (((dat1 (V3 m ρ) c).arrAt_in 2 rfl _).trans (A_eq1 (V3 m ρ) c 2))).symm.trans (W4_main_arg2 m ρ c)

/-- The weight array, column by column: each stream's softmax weights. -/
theorem weights_eq (c : Dev nD) :
    (V3 m ρ c main_v15 : Vec Ideal S100000x3 .f32)
      = Cert.Spec.packed (Cert.Spec.weight (Cert.Spec.score (m ((c : Thread nD τ).loc main_arg0)) (m ((c : Thread nD τ).loc main_arg3)) (m ((c : Thread nD τ).loc main_arg4)) (m ((c : Thread nD τ).loc main_arg9))))
          (Cert.Spec.weight (Cert.Spec.score (m ((c : Thread nD τ).loc main_arg1)) (m ((c : Thread nD τ).loc main_arg5)) (m ((c : Thread nD τ).loc main_arg6)) (m ((c : Thread nD τ).loc main_arg9))))
          (Cert.Spec.weight (Cert.Spec.score (m ((c : Thread nD τ).loc main_arg2)) (m ((c : Thread nD τ).loc main_arg7)) (m ((c : Thread nD τ).loc main_arg8)) (m ((c : Thread nD τ).loc main_arg9)))) := by
  rw [V3_v15 m ρ c, scores_eq m ρ c, Cert.KernelIdeal.Softmax.softmaxOps_eq,
    Cert.Spec.column_packed_0, Cert.Spec.column_packed_1, Cert.Spec.column_packed_2]

/-! ## The result array -/

theorem result_eq (c : Dev nD) :
    (W4 m ρ c (Proc.devRef .tc main_v16) : Vec Ideal S100000x256 .f32)
      = Cert.Spec.result (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 4).trans ?_
  refine (Cert.KernelIdeal.Combine.final (V3 m ρ) c).trans ?_
  show Cert.Spec.mix (Cert.Spec.column (V3 m ρ c main_v15) 0) (Cert.Spec.column (V3 m ρ c main_v15) 1) (Cert.Spec.column (V3 m ρ c main_v15) 2)
      (V3 m ρ c main_arg0) (V3 m ρ c main_arg1) (V3 m ρ c main_arg2) = _
  rw [weights_eq m ρ c, V3_arg0 m ρ c, V3_arg1 m ρ c, V3_arg2 m ρ c,
    Cert.Spec.column_packed_0, Cert.Spec.column_packed_1, Cert.Spec.column_packed_2]
  rfl

/-- The run, read: the result array at `Cert.Spec.result` of the arguments, the arguments unchanged. -/
theorem run : θ_run defs (onTc (τ := τ) (main (F := Ideal))) ⟨m, fun _ => 0, ρ⟩ (fun r => ∀ c : Dev nD,
      r.2.mem ((c.tc : Thread nD τ).loc main_v16)
        = Cert.Spec.result (m ((c : Thread nD τ).loc main_arg0)) (m ((c : Thread nD τ).loc main_arg1)) (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (Cert.KernelIdeal.Run.run_main m ρ)

end Cert.KernelIdeal.Whole

end
-- ==== Proof.Reference.lean ====
/-
  The reference, read: its result array is `Cert.Spec.result` of its argument arrays.
  Each stream's score is a matrix product against the transposed weights, a bias row added, tanh, and a
  product with the query column, flattened to one number per node; its softmax over all nodes is
  jax's chain (maximum from -∞, shift, exponential, sum from 0, quotient); the result is the three
  scaled streams added left to right.
-/
import proofs.«413630_j58652073394851_3_alg».proof.Proof.Gen.ReferenceIdeal.Read
import proofs.«413630_j58652073394851_3_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The raw score of one stream, read at node `n`. -/
theorem score_read (x0 : (⟨S100000x256, .f32⟩ : BufTy).Contents (Elt Ideal))
    (x3 : (⟨S64x256, .f32⟩ : BufTy).Contents (Elt Ideal)) (x4 x9 : (⟨S64x1, .f32⟩ : BufTy).Contents (Elt Ideal))
    (n : Fin 100000) :
    val_main_v7 (F := Ideal) x0 x3 x4 x9 (ix1 n) = Cert.Spec.score x0 x3 x4 x9 n := by
  rw [val_main_v7_apply, val_main_v6_apply]
  unfold Cert.Spec.score
  refine Finset.sum_congr rfl fun h _ => ?_
  rw [val_main_v5_apply, val_main_v4_apply, val_main_v1_apply, val_main_v3_apply, val_main_v2_apply,
    Ideal.hostUnary_tanh_def, Ideal.addf_def]
  -- the row of the node matrix: coordinates (n, k)
  have eZ : ∀ k : Fin 256, lidx_main_v1 (lidx_main_v6 (idx_main_v7 (ix1 n)) h) k = ix2 n k := fun k =>
    funext fun a => match a with
      | ⟨0, _⟩ => Fin.ext (Nat.div_one _)
      | ⟨1, _⟩ => rfl
  -- the transposed weights at (k, h) are the weights at (h, k)
  have eW : ∀ k : Fin 256, val_main_v0 (F := Ideal) x3 (ridx_main_v1 (lidx_main_v6 (idx_main_v7 (ix1 n)) h) k) = x3 (ix2 h k) := fun k => by
    rw [val_main_v0_apply]
    exact congrArg x3 (funext fun a => match a with
      | ⟨0, _⟩ => rfl
      | ⟨1, _⟩ => rfl)
  have eb : idx_main_v2 (idx_main_v3 (lidx_main_v6 (idx_main_v7 (ix1 n)) h)) = ix2 h 0 :=
    funext fun a => match a with
      | ⟨0, _⟩ => rfl
      | ⟨1, _⟩ => rfl
  have eq : ridx_main_v6 (idx_main_v7 (ix1 n)) h = ix2 h 0 :=
    funext fun a => match a with
      | ⟨0, _⟩ => rfl
      | ⟨1, _⟩ => rfl
  rw [eb, eq]
  simp only [eZ, eW]

/-- A node index is its one coordinate. -/
def nodeEquiv : S100000.Idx ≃ Fin 100000 where
  toFun i := i 0
  invFun n := ix1 n
  left_inv i := (eq_ix1 i).symm
  right_inv n := rfl

/-- The maximum-reduce of a node column from the -∞ pattern is the fold of `max` over the nodes. -/
theorem max_read (y : (⟨S100000, .f32⟩ : BufTy).Contents (Elt Ideal)) (j : S_.Idx) :
    Host.reduce (FloatOps.maximumf (F := Ideal) (φ := .f32)) y (val_main_cst (F := Ideal)) reducesTo_S100000_S_d0 h_S_ j
      = (Finset.univ : Finset (Fin 100000)).fold max (Ideal.ofBits .f32 0xFF800000#32) (fun k => y (ix1 k)) := by
  rw [Host.reduce_eq_fold (FloatOps.maximumf (F := Ideal) (φ := .f32)) y (val_main_cst (F := Ideal))
    reducesTo_S100000_S_d0 h_S_ j]
  -- the result has no axes, so every node drops to its one index
  rw [Finset.filter_true_of_mem fun i _ => funext fun b => b.elim0]
  rw [← Finset.map_univ_equiv nodeEquiv.symm, Finset.fold_map]
  rfl

/-- The sum-reduce of a node column from the zero pattern is that pattern plus the sum over the nodes. -/
theorem sum_read (y : (⟨S100000, .f32⟩ : BufTy).Contents (Elt Ideal)) (j : S_.Idx) :
    Host.reduceAdd y (val_main_cst_1 (F := Ideal)) reducesTo_S100000_S_d0 h_S_ j
      = Ideal.ofBits .f32 0x00000000#32 + ∑ k : Fin 100000, y (ix1 k) := by
  simp only [Host.reduceAdd, Ideal.hostReduceAdd_def]
  rw [Ideal.hostReduceAdd_total reducesTo_S100000_S_d0 (fun b => b.elim0) y _ j]
  rw [← Equiv.sum_comp nodeEquiv.symm y]
  rfl

/-- The stream's shift: the -∞ pattern against the maximum of its scores. -/
theorem shift_read (x0 : (⟨S100000x256, .f32⟩ : BufTy).Contents (Elt Ideal))
    (x3 : (⟨S64x256, .f32⟩ : BufTy).Contents (Elt Ideal)) (x4 x9 : (⟨S64x1, .f32⟩ : BufTy).Contents (Elt Ideal))
    (j : S_.Idx) :
    val_main_v9 (F := Ideal) x0 x3 x4 x9 j = Cert.Spec.shift (Cert.Spec.score x0 x3 x4 x9) := by
  rw [val_main_v9_apply, val_main_cst_0_apply, Ideal.maximumf_def, Ideal.ofBits_def]
  unfold Cert.Spec.shift val_main_v8
  rw [max_read]
  simp only [score_read]

/-- The stream's softmax weight of node `n`. -/
theorem weight_read (x0 : (⟨S100000x256, .f32⟩ : BufTy).Contents (Elt Ideal))
    (x3 : (⟨S64x256, .f32⟩ : BufTy).Contents (Elt Ideal)) (x4 x9 : (⟨S64x1, .f32⟩ : BufTy).Contents (Elt Ideal))
    (n : Fin 100000) :
    val_main_v17 (F := Ideal) x0 x3 x4 x9 (ix1 n) = Cert.Spec.weight (Cert.Spec.score x0 x3 x4 x9) n := by
  -- every exponential is of a score less the shift
  have hexp : ∀ k : Fin 100000, val_main_v13 (F := Ideal) x0 x3 x4 x9 (ix1 k)
      = Ideal.exp (Cert.Spec.score x0 x3 x4 x9 k - Cert.Spec.shift (Cert.Spec.score x0 x3 x4 x9)) := fun k => by
    rw [val_main_v13_apply, val_main_v12_apply, val_main_v11_apply, val_main_v10_apply, shift_read, score_read,
      Ideal.hostUnary_exp_def, Ideal.subf_def]
  rw [val_main_v17_apply, val_main_v16_apply, val_main_v15_apply, Ideal.hostDivf_def, hexp]
  unfold Cert.Spec.weight val_main_v14
  rw [sum_read]
  simp only [hexp]

/-- The second and third streams' weights are the first stream's operations on their own arguments. -/
theorem weight2_eq : @val_main_v35 Ideal _ = @val_main_v17 Ideal _ := rfl
theorem weight3_eq : @val_main_v53 Ideal _ = @val_main_v17 Ideal _ := rfl

/-- The reference's result, as one function of its ten arguments, is the specification. -/
theorem val_result_eq (x0 x1 x2 : (⟨S100000x256, .f32⟩ : BufTy).Contents (Elt Ideal))
    (x3 : (⟨S64x256, .f32⟩ : BufTy).Contents (Elt Ideal)) (x4 : (⟨S64x1, .f32⟩ : BufTy).Contents (Elt Ideal))
    (x5 : (⟨S64x256, .f32⟩ : BufTy).Contents (Elt Ideal)) (x6 : (⟨S64x1, .f32⟩ : BufTy).Contents (Elt Ideal))
    (x7 : (⟨S64x256, .f32⟩ : BufTy).Contents (Elt Ideal)) (x8 x9 : (⟨S64x1, .f32⟩ : BufTy).Contents (Elt Ideal)) :
    val_main_v64 (F := Ideal) x0 x1 x2 x3 x4 x5 x6 x7 x8 x9 = Cert.Spec.result x0 x1 x2 x3 x4 x5 x6 x7 x8 x9 := by
  funext i
  obtain ⟨n, d, rfl⟩ : ∃ (n : Fin 100000) (d : Fin 256), i = ix2 n d := ⟨i 0, i 1, eq_ix2 i⟩
  -- a weight spread along a row is read at the row's node
  have e1 : idx_main_v54 (idx_main_v55 (ix2 n d)) = ix1 n := funext fun a => match a with | ⟨0, _⟩ => rfl
  have e2 : idx_main_v57 (idx_main_v58 (ix2 n d)) = ix1 n := funext fun a => match a with | ⟨0, _⟩ => rfl
  have e3 : idx_main_v61 (idx_main_v62 (ix2 n d)) = ix1 n := funext fun a => match a with | ⟨0, _⟩ => rfl
  rw [val_main_v64_apply, val_main_v60_apply, val_main_v56_apply, val_main_v59_apply, val_main_v63_apply,
    val_main_v55_apply, val_main_v54_apply, val_main_v58_apply, val_main_v57_apply, val_main_v62_apply,
    val_main_v61_apply, e1, e2, e3, weight2_eq, weight3_eq, weight_read, weight_read, weight_read,
    Ideal.addf_def, Ideal.addf_def, Ideal.mulf_def, Ideal.mulf_def, Ideal.mulf_def]
  rfl

end Cert.ReferenceIdeal.RefValue

end
-- ==== Proof.lean ====
/-
  Tanh-score attention over three streams of 100000 nodes: a two-pass Pallas kernel against its jnp
  reference, equal over the extended reals.

  Both programs compute, for each stream, every node's score ∑ₕ tanh (∑_d Z[n,d]·W[h,d] + b[h])·q[h],
  a softmax of the scores over ALL nodes, and the three streams' rows scaled by their weights and
  added (`Cert.Spec.result`, Proof/Spec.lean). The kernel's first pass writes the three score columns
  side by side, jax's softmax runs down the node axis of that [100000, 3] array on the host, and the
  second pass combines; the reference does the same stream by stream on [100000] vectors. At the ideal
  values the kernel's bf16 operand casts are the identity, its matrix product into a zero accumulator
  and its lane sum are the reference's two dot products, and both softmaxes are the same fold and sum
  over the 100000 nodes, so the two results are one function of the arguments: no algebraic law is
  needed beyond reading both sides at an index, and the finiteness of the inputs is never used.

  The kernel side: Proof/KernelRun.lean (the run with the result buffer kept), Proof/Payloads.lean
  (the two bodies at an index), Proof/ScoreRegion.lean and Proof/CombineRegion.lean (each region's
  array as one whole-array function of its entry contents), Proof/SoftmaxChain.lean (the host softmax
  column by column), Proof/KernelValue.lean (the chain). The reference side: Proof/Reference.lean
  over the generated run and its read-at-an-index lemmas.
-/
import proofs.«413630_j58652073394851_3_alg».proof.Defs
import proofs.«413630_j58652073394851_3_alg».proof.Proof.Gen.Kernel
import proofs.«413630_j58652073394851_3_alg».proof.Proof.Gen.Kernel.Skeleton
import proofs.«413630_j58652073394851_3_alg».proof.Proof.Gen.Kernel.Launch
import proofs.«413630_j58652073394851_3_alg».proof.Proof.Gen.Kernel.Points
import proofs.«413630_j58652073394851_3_alg».proof.Proof.Gen.Kernel.Frame
import proofs.«413630_j58652073394851_3_alg».proof.Proof.Gen.KernelIdeal
import proofs.«413630_j58652073394851_3_alg».proof.Proof.Gen.KernelIdeal.Skeleton
import proofs.«413630_j58652073394851_3_alg».proof.Proof.Gen.KernelIdeal.Launch
import proofs.«413630_j58652073394851_3_alg».proof.Proof.Gen.KernelIdeal.Points
import proofs.«413630_j58652073394851_3_alg».proof.Proof.Gen.KernelIdeal.Frame
import proofs.«413630_j58652073394851_3_alg».proof.Proof.Gen.ReferenceIdeal
import proofs.«413630_j58652073394851_3_alg».proof.Proof.Gen.ReferenceIdeal.Run
import proofs.«413630_j58652073394851_3_alg».proof.Proof.Gen.ReferenceIdeal.Read
import proofs.«413630_j58652073394851_3_alg».proof.Proof.Gen.Pre_finite_inputs
import proofs.«413630_j58652073394851_3_alg».proof.Proof.KernelValue
import proofs.«413630_j58652073394851_3_alg».proof.Proof.Reference
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- Run from memories that agree on the arguments, both programs end with the result array at
    `Cert.Spec.result` of the arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v64_eq, Cert.ReferenceIdeal.RefValue.val_result_eq,
    a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
